-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S64x1 : Shape := ⟨2, ![64, 1]⟩
abbrev S64 : Shape := ⟨1, ![64]⟩
abbrev S64x64 : Shape := ⟨2, ![64, 64]⟩
abbrev S2x64 : Shape := ⟨2, ![2, 64]⟩
abbrev S2 : Shape := ⟨1, ![2]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S64x1 : S_.BroadcastsInDim S64x1 (![] : Fin 0 → Fin S64x1.rank)
  reducesTo_S64x1_S_d0_1 : S64x1.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg7 : FVec F S64x64 .f32) (main_arg8 : FVec F S64 .f32) (main_arg9 : FVec F S2x64 .f32) (main_arg10 : FVec F S2 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S2x64 .f32 := Host.absf main_arg9
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_arg9 : FVec F S2x64 .f32) (main_arg10 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1000000 .f32) (main_arg1 : FVec F S64x1 .f32) (main_arg2 : FVec F S64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S2x64 .f32) (main_arg10 : FVec F S2 .f32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S64x1 .f32 := Host.absf main_arg1
  let main_cst_0 : FVec F S_ .f32 := constant S_ .f32 0x7F800000#32
  let main_v5 : FVec F S64x1 .f32 := broadcastInDim S64x1 ![] bcast_S_S64x1 main_cst_0
  let main_v6 : IVec S64x1 1 := cmpf .olt main_v4 main_v5
  let main_c_1 : IVec S_ 1 := constantI S_ 1 1#1
  let main_v7 : IVec S_ 1 := (fun x v => Host.reduce IntOp.andi x v reducesTo_S64x1_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_v13 main_v16
-- ==== Kernel.lean ====
abbrev S1000000 : Shape := ⟨1, ![1000000]⟩
abbrev S64x1 : Shape := ⟨2, ![64, 1]⟩
abbrev S64 : Shape := ⟨1, ![64]⟩
abbrev S64x64 : Shape := ⟨2, ![64, 64]⟩
abbrev S2x64 : Shape := ⟨2, ![2, 64]⟩
abbrev S2 : Shape := ⟨1, ![2]⟩
abbrev S1000000x1 : Shape := ⟨2, ![1000000, 1]⟩
abbrev S1x64 : Shape := ⟨2, ![1, 64]⟩
abbrev S64x2 : Shape := ⟨2, ![64, 2]⟩
abbrev S1x2 : Shape := ⟨2, ![1, 2]⟩
abbrev S1000000x2 : Shape := ⟨2, ![1000000, 2]⟩
abbrev S2x1000000x64 : Shape := ⟨3, ![2, 1000000, 64]⟩
abbrev S10000x1 : Shape := ⟨2, ![10000, 1]⟩
abbrev S10000x2 : Shape := ⟨2, ![10000, 2]⟩
abbrev S2x10000x64 : Shape := ⟨3, ![2, 10000, 64]⟩
abbrev S10000x64 : Shape := ⟨2, ![10000, 64]⟩
abbrev S1x10000x64 : Shape := ⟨3, ![1, 10000, 64]⟩

abbrev nBuf : Space → Nat
  | .hbm => 22
  | .vmem => 12
  | .smem => 0
  | _ => 0

abbrev bufTy : (tb : Table) → Fin (tcTables nBuf tb) → BufTy
  | .hbm, ⟨0, _⟩ => ⟨S1000000, .f32⟩
  | .hbm, ⟨1, _⟩ => ⟨S64x1, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S2x64, .f32⟩
  | .hbm, ⟨10, _⟩ => ⟨S2, .f32⟩
  | .hbm, ⟨11, _⟩ => ⟨S1000000x1, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S64x64, .f32⟩
  | .hbm, ⟨16, _⟩ => ⟨S64, .f32⟩
  | .hbm, ⟨17, _⟩ => ⟨S1x64, .f32⟩
  | .hbm, ⟨18, _⟩ => ⟨S64x2, .f32⟩
  | .hbm, ⟨19, _⟩ => ⟨S1x2, .f32⟩
  | .hbm, ⟨20, _⟩ => ⟨S1000000x2, .f32⟩
  | .hbm, ⟨21, _⟩ => ⟨S2x1000000x64, .f32⟩
  | .local _ .vmem, ⟨0, _⟩ => ⟨S10000x1, .f32⟩
  | .local _ .vmem, ⟨1, _⟩ => ⟨S10000x1, .f32⟩
  | .local _ .vmem, ⟨2, _⟩ => ⟨S1x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x2, .f32⟩
  | .local _ .vmem, ⟨7, _⟩ => ⟨S1x2, .f32⟩
  | .local _ .vmem, ⟨8, _⟩ => ⟨S10000x2, .f32⟩
  | .local _ .vmem, ⟨9, _⟩ => ⟨S10000x2, .f32⟩
  | .local _ .vmem, ⟨10, _⟩ => ⟨S2x10000x64, .f32⟩
  | .local _ .vmem, ⟨11, _⟩ => ⟨S2x10000x64, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x10000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S1000000_S1000000x1 : S1000000.ShapeCasts S1000000x1
  transposes_S64x1_S1x64_1_0 : S64x1.Transposes [1, 0] S1x64
  shapeCasts_S64_S1x64 : S64.ShapeCasts S1x64
  transposes_S64x64_S64x64_1_0 : S64x64.Transposes [1, 0] S64x64
  transposes_S2x64_S64x2_1_0 : S2x64.Transposes [1, 0] S64x2
  shapeCasts_S2_S1x2 : S2.ShapeCasts S1x2
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S10000x1_S10000x64 : S10000x1.Broadcasts S10000x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  inb_S2x10000x64_S1x10000x64_0_0_0 : ∀ a, (![0, 0, 0] : Fin 3 → Nat) a + S1x10000x64.size a ≤ S2x10000x64.size a
  h_S1x10000x64 : 0 < S1x10000x64.numel
  shapeCasts_S1x10000x64_S10000x64 : S1x10000x64.ShapeCasts S10000x64
  shapeCasts_S10000x64_S1x10000x64 : S10000x64.ShapeCasts S1x10000x64
  inb_S2x10000x64_S1x10000x64_1_0_0 : ∀ a, (![1, 0, 0] : Fin 3 → Nat) a + S1x10000x64.size a ≤ S2x10000x64.size a
  dot_S10000x64_S64x64_S10000x64_1_0_0_1_n_n_wf : DotDims.WF S10000x64 S64x64 S10000x64 [1] [0] [0] [1] [] []
  dot_S10000x64_S64x2_S10000x2_1_0_0_1_n_n_wf : DotDims.WF S10000x64 S64x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S1000000x1.size a
  hwx0_0 : ∀ i : grid0.Coords, EltTy.bits .f32 = 32 ∨ (Rect.block (s := S1000000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x2.size a ≤ S64x2.size a
  hwx0_5 : ∀ i : grid0.Coords, EltTy.bits .f32 = 32 ∨ (Rect.block (s := S64x2) S64x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2.size a ≤ S1x2.size a
  hwx0_6 : ∀ i : grid0.Coords, EltTy.bits .f32 = 32 ∨ (Rect.block (s := S1x2) S1x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x2.size a ≤ S1000000x2.size a
  hwx0_7 : ∀ i : grid0.Coords, EltTy.bits .f32 = 32 ∨ (Rect.block (s := S1000000x2) S10000x2.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x10000x64.size a ≤ S2x1000000x64.size a
  hwx0_8 : ∀ i : grid0.Coords, EltTy.bits .f32 = 32 ∨ (Rect.block (s := S2x1000000x64) S2x10000x64.size (cc0_transform_8 i) (hinb0_8 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf

abbrev win0_0 : Pipeline.Window sig grid0 :=
  Pipeline.Window.ofSpec (Memref.whole main_v0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S64x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9_0) S10000x2.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_1) S2x10000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1000000 : Shape := ⟨1, ![1000000]⟩
abbrev S64x1 : Shape := ⟨2, ![64, 1]⟩
abbrev S64 : Shape := ⟨1, ![64]⟩
abbrev S64x64 : Shape := ⟨2, ![64, 64]⟩
abbrev S2x64 : Shape := ⟨2, ![2, 64]⟩
abbrev S2 : Shape := ⟨1, ![2]⟩
abbrev S1000000x1 : Shape := ⟨2, ![1000000, 1]⟩
abbrev S1x64 : Shape := ⟨2, ![1, 64]⟩
abbrev S1000000x64 : Shape := ⟨2, ![1000000, 64]⟩
abbrev S64x2 : Shape := ⟨2, ![64, 2]⟩
abbrev S1000000x2 : Shape := ⟨2, ![1000000, 2]⟩
abbrev S1x2 : Shape := ⟨2, ![1, 2]⟩
abbrev S1x1000000x64 : Shape := ⟨3, ![1, 1000000, 64]⟩
abbrev S2x1000000x64 : Shape := ⟨3, ![2, 1000000, 64]⟩

abbrev nBuf : Space → Nat
  | .hbm => 38
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S64x1, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S2x64, .f32⟩
  | .hbm, ⟨10, _⟩ => ⟨S2, .f32⟩
  | .hbm, ⟨11, _⟩ => ⟨S1000000x1, .f32⟩
  | .hbm, ⟨12, _⟩ => ⟨S1x64, .f32⟩
  | .hbm, ⟨13, _⟩ => ⟨S1000000x64, .f32⟩
  | .hbm, ⟨14, _⟩ => ⟨S1x64, .f32⟩
  | .hbm, ⟨15, _⟩ => ⟨S1000000x64, .f32⟩
  | .hbm, ⟨16, _⟩ => ⟨S1000000x64, .f32⟩
  | .hbm, ⟨17, _⟩ => ⟨S1x64, .f32⟩
  | .hbm, ⟨18, _⟩ => ⟨S1000000x64, .f32⟩
  | .hbm, ⟨19, _⟩ => ⟨S1000000x64, .f32⟩
  | .hbm, ⟨20, _⟩ => ⟨S1000000x64, .f32⟩
  | .hbm, ⟨21, _⟩ => ⟨S64x64, .f32⟩
  | .hbm, ⟨22, _⟩ => ⟨S1000000x64, .f32⟩
  | .hbm, ⟨23, _⟩ => ⟨S1x64, .f32⟩
  | .hbm, ⟨24, _⟩ => ⟨S1000000x64, .f32⟩
  | .hbm, ⟨25, _⟩ => ⟨S1000000x64, .f32⟩
  | .hbm, ⟨26, _⟩ => ⟨S1x64, .f32⟩
  | .hbm, ⟨27, _⟩ => ⟨S1000000x64, .f32⟩
  | .hbm, ⟨28, _⟩ => ⟨S1000000x64, .f32⟩
  | .hbm, ⟨29, _⟩ => ⟨S1000000x64, .f32⟩
  | .hbm, ⟨30, _⟩ => ⟨S64x2, .f32⟩
  | .hbm, ⟨31, _⟩ => ⟨S1000000x2, .f32⟩
  | .hbm, ⟨32, _⟩ => ⟨S1x2, .f32⟩
  | .hbm, ⟨33, _⟩ => ⟨S1000000x2, .f32⟩
  | .hbm, ⟨34, _⟩ => ⟨S1000000x2, .f32⟩
  | .hbm, ⟨35, _⟩ => ⟨S1x1000000x64, .f32⟩
  | .hbm, ⟨36, _⟩ => ⟨S1x1000000x64, .f32⟩
  | .hbm, ⟨37, _⟩ => ⟨S2x1000000x64, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S1000000_S1000000x1_0 : S1000000.BroadcastsInDim S1000000x1 (![0] : Fin 1 → Fin S1000000x1.rank)
  transposes_S64x1_S1x64_1_0 : S64x1.Transposes [1, 0] S1x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  transposes_S64x64_S64x64_1_0 : S64x64.Transposes [1, 0] S64x64
  transposes_S2x64_S64x2_1_0 : S2x64.Transposes [1, 0] S64x2
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  bcast_S1000000x64_S1x1000000x64_1_2 : S1000000x64.BroadcastsInDim S1x1000000x64 (![1, 2] : Fin 2 → Fin S1x1000000x64.rank)
  concatenates_S1x1000000x64_S1x1000000x64_S2x1000000x64_d0 : Shape.Concatenates [S1x1000000x64, S1x1000000x64] S2x1000000x64 0
  dot_S1000000x1_S1x64_S1000000x64_1_0_0_1_n_n_wf : DotDims.WF S1000000x1 S1x64 S1000000x64 [1] [0] [0] [1] [] []
  dot_S1000000x64_S64x64_S1000000x64_1_0_0_1_n_n_wf : DotDims.WF S1000000x64 S64x64 S1000000x64 [1] [0] [0] [1] [] []
  dot_S1000000x64_S64x2_S1000000x2_1_0_0_1_n_n_wf : DotDims.WF S1000000x64 S64x2 S1000000x2 [1] [0] [0] [1] [] []

variable [Facts₀]

def dot_S1000000x1_S1x64_S1000000x64_1_0_0_1_n_n : DotDims S1000000x1 S1x64 S1000000x64 where
  lhsContracting := [1]
  rhsContracting := [0]
  lhsNonContracting := [0]
  rhsNonContracting := [1]
  lhsBatch := []
  rhsBatch := []
  wf := dot_S1000000x1_S1x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S1000000x64_S64x2_S1000000x2_1_0_0_1_n_n : DotDims S1000000x64 S64x2 S1000000x2 where
  lhsContracting := [1]
  rhsContracting := [0]
  lhsNonContracting := [0]
  rhsNonContracting := [1]
  lhsBatch := []
  rhsBatch := []
  wf := dot_S1000000x64_S64x2_S1000000x2_1_0_0_1_n_n_wf

class Facts : Prop extends Facts₀ where

variable [Facts]
-- ==== Proof.Spec.lean ====
/-
  A two-layer tanh recurrent cell, run for ONE time step from a zero hidden state on each of 1 000 000 scalar inputs,
  followed by a linear head.  With the hidden state zero the recurrent weights contribute nothing, so for input row `r`

    first  r j = tanh (x r · W₀ j 0 + b₀ j + c₀ j)                    (the first layer's unit `j`)
    second r j = tanh (∑ k, first r k · W₁ j k + b₁ j + c₁ j)          (the second layer's unit `j`)
    head   r o = ∑ k, second r k · W_f o k + b_f o                     (the linear head's output `o`)

  over the extended reals.  The two result arrays are `head` laid out [row, output], and the two layers stacked along a
  new leading axis, [layer, row, unit].
-/
import Idealize.ShloMosaic.PureOps.Ideal
import Idealize.ShloMosaic.Lib.ValueIdx

noncomputable section

open scoped BigOperators

namespace Cert.Rnn

open Idealize.ShloMosaic Idealize.ShloMosaic.ValueIdx

variable (x : (⟨1, ![1000000]⟩ : Shape).Idx → EReal)
  (W₀ : (⟨2, ![64, 1]⟩ : Shape).Idx → EReal) (b₀ c₀ : (⟨1, ![64]⟩ : Shape).Idx → EReal)
  (W₁ : (⟨2, ![64, 64]⟩ : Shape).Idx → EReal) (b₁ c₁ : (⟨1, ![64]⟩ : Shape).Idx → EReal)
  (Wf : (⟨2, ![2, 64]⟩ : Shape).Idx → EReal) (bf : (⟨1, ![2]⟩ : Shape).Idx → EReal)

/-- Unit `j` of the first layer on input row `r`: the scalar input times the unit's one input weight, plus its two
    biases (input-side, then hidden-side), through tanh. -/
def first (r : Fin 1000000) (j : Fin 64) : EReal :=
  Ideal.tanh (x (ix1 r) * W₀ (ix2 j 0) + b₀ (ix1 j) + c₀ (ix1 j))

/-- Unit `j` of the second layer on input row `r`: the first layer's 64 units against row `j` of the second layer's
    input weights, plus its two biases, through tanh. -/
def second (r : Fin 1000000) (j : Fin 64) : EReal :=
  Ideal.tanh ((∑ k : Fin 64, first x W₀ b₀ c₀ r k * W₁ (ix2 j k)) + b₁ (ix1 j) + c₁ (ix1 j))

/-- Output `o` of the linear head on input row `r`: the second layer's 64 units against row `o` of the head's weights,
    plus the head's bias. -/
def head (r : Fin 1000000) (o : Fin 2) : EReal :=
  (∑ k : Fin 64, second x W₀ b₀ c₀ W₁ b₁ c₁ r k * Wf (ix2 o k)) + bf (ix1 o)

/-- The head's outputs as an array [row, output]. -/
def headArr : (⟨2, ![1000000, 2]⟩ : Shape).Idx → EReal :=
  fun i => head x W₀ b₀ c₀ W₁ b₁ c₁ Wf bf (i 0) (i 1)

/-- The two layers' units stacked along a new leading axis: slab 0 the first layer, slab 1 the second, each [row, unit]. -/
def layersArr : (⟨3, ![2, 1000000, 64]⟩ : Shape).Idx → EReal :=
  fun i => if (i 0).val = 0 then first x W₀ b₀ c₀ (i 1) (i 2) else second x W₀ b₀ c₀ W₁ b₁ c₁ (i 1) (i 2)

end Cert.Rnn

end
-- ==== Proof.RefValue.lean ====
/-
  The reference program computes the recurrent cell of the specification: its stages, read at an index one operation at
  a time, are the first layer (a product with one contracted term, then the two biases added one after the other, then
  tanh), the second layer (a 64-term contraction with the transposed weights, the two biases, tanh), the head (a 64-term
  contraction with the transposed head weights, plus the bias broadcast along the rows), and the two layers joined along a
  new leading axis.
-/
import proofs.«143883_j13675175870864_1_alg».proof.Proof.Gen.ReferenceIdeal.Read
import proofs.«143883_j13675175870864_1_alg».proof.Proof.Spec

noncomputable section

open scoped BigOperators

namespace Cert.Rnn.Ref

open Cert.ReferenceIdeal Cert.ReferenceIdeal.Gen Cert.ReferenceIdeal.Read Idealize.ShloMosaic Idealize.ShloMosaic.ValueIdx
open Cert.Rnn

variable (x : (⟨S1000000, .f32⟩ : BufTy).Contents (Elt Ideal)) (W₀ : (⟨S64x1, .f32⟩ : BufTy).Contents (Elt Ideal))
  (b₀ c₀ : (⟨S64, .f32⟩ : BufTy).Contents (Elt Ideal))
  (W₁ : (⟨S64x64, .f32⟩ : BufTy).Contents (Elt Ideal)) (b₁ c₁ : (⟨S64, .f32⟩ : BufTy).Contents (Elt Ideal))
  (Wf : (⟨S2x64, .f32⟩ : BufTy).Contents (Elt Ideal)) (bf : (⟨S2, .f32⟩ : BufTy).Contents (Elt Ideal))

/-- The stage after the first tanh, at row `r` and unit `j`, is the first layer: the one-term contraction is the product
    of the input with the unit's weight, and the broadcast biases are read at the unit. -/
theorem first_eq (r : Fin 1000000) (j : Fin 64) :
    val_main_v9 (F := Ideal) x W₀ b₀ c₀ (ix2 r j) = first x W₀ b₀ c₀ r j := by
  rw [val_main_v9_apply, val_main_v8_apply, val_main_v5_apply, val_main_v2_apply, Fin.sum_univ_one,
    val_main_v0_apply, val_main_v1_apply, val_main_v4_apply, val_main_v3_apply, val_main_v7_apply, val_main_v6_apply]
  have e0 : idx_main_v0 (lidx_main_v2 (ix2 r j) 0) = ix1 r := funext fun a => match a with | ⟨0, _⟩ => rfl
  have e1 : idx_main_v1 (ridx_main_v2 (ix2 r j) 0) = ix2 j 0 :=
    funext fun a => match a with | ⟨0, _⟩ => rfl | ⟨1, _⟩ => rfl
  have e2 : idx_main_v3 (idx_main_v4 (ix2 r j)) = ix1 j := funext fun a => match a with | ⟨0, _⟩ => rfl
  have e3 : idx_main_v6 (idx_main_v7 (ix2 r j)) = ix1 j := funext fun a => match a with | ⟨0, _⟩ => rfl
  rw [e0, e1, e2, e3]
  rfl

/-- The stage after the second tanh, at row `r` and unit `j`, is the second layer: the contraction runs over the first
    layer's units against the transposed weights, that is against row `j` of the weights as given. -/
theorem second_eq (r : Fin 1000000) (j : Fin 64) :
    val_main_v18 (F := Ideal) x W₀ b₀ c₀ W₁ b₁ c₁ (ix2 r j) = second x W₀ b₀ c₀ W₁ b₁ c₁ r j := by
  rw [val_main_v18_apply, val_main_v17_apply, val_main_v14_apply, val_main_v11_apply,
    val_main_v13_apply, val_main_v12_apply, val_main_v16_apply, val_main_v15_apply]
  have es : ∀ k : Fin 64, val_main_v9 (F := Ideal) x W₀ b₀ c₀ (lidx_main_v11 (ix2 r j) k)
      * val_main_v10 (F := Ideal) W₁ (ridx_main_v11 (ix2 r j) k) = first x W₀ b₀ c₀ r k * W₁ (ix2 j k) := fun k => by
    have el : lidx_main_v11 (ix2 r j) k = ix2 r k := funext fun a => match a with | ⟨0, _⟩ => rfl | ⟨1, _⟩ => rfl
    have er : idx_main_v10 (ridx_main_v11 (ix2 r j) k) = ix2 j k :=
      funext fun a => match a with | ⟨0, _⟩ => rfl | ⟨1, _⟩ => rfl
    rw [el, first_eq, val_main_v10_apply, er]
  rw [Finset.sum_congr rfl (fun k _ => es k)]
  have e2 : idx_main_v12 (idx_main_v13 (ix2 r j)) = ix1 j := funext fun a => match a with | ⟨0, _⟩ => rfl
  have e3 : idx_main_v15 (idx_main_v16 (ix2 r j)) = ix1 j := funext fun a => match a with | ⟨0, _⟩ => rfl
  rw [e2, e3]
  rfl

/-- The first result is the head's array. -/
theorem head_eq : val_main_v23 (F := Ideal) x W₀ b₀ c₀ W₁ b₁ c₁ Wf bf = headArr x W₀ b₀ c₀ W₁ b₁ c₁ Wf bf := by
  funext i
  obtain ⟨r, o, rfl⟩ : ∃ (r : Fin 1000000) (o : Fin 2), i = ix2 r o := ⟨i 0, i 1, eq_ix2 i⟩
  rw [val_main_v23_apply, val_main_v20_apply, val_main_v22_apply, val_main_v21_apply]
  have es : ∀ k : Fin 64, val_main_v18 (F := Ideal) x W₀ b₀ c₀ W₁ b₁ c₁ (lidx_main_v20 (ix2 r o) k)
      * val_main_v19 (F := Ideal) Wf (ridx_main_v20 (ix2 r o) k) = second x W₀ b₀ c₀ W₁ b₁ c₁ r k * Wf (ix2 o k) := fun k => by
    have el : lidx_main_v20 (ix2 r o) k = ix2 r k := funext fun a => match a with | ⟨0, _⟩ => rfl | ⟨1, _⟩ => rfl
    have er : idx_main_v19 (ridx_main_v20 (ix2 r o) k) = ix2 o k :=
      funext fun a => match a with | ⟨0, _⟩ => rfl | ⟨1, _⟩ => rfl
    rw [el, second_eq, val_main_v19_apply, er]
  rw [Finset.sum_congr rfl (fun k _ => es k)]
  have e2 : idx_main_v21 (idx_main_v22 (ix2 r o)) = ix1 o := funext fun a => match a with | ⟨0, _⟩ => rfl
  rw [e2]
  rfl

/-- The second result is the two layers stacked: an index in slab 0 falls in the first joined piece, which is the first
    layer with a unit axis in front; an index in slab 1 falls in the second piece, the second layer likewise. -/
theorem layers_eq : val_main_v26 (F := Ideal) x W₀ b₀ c₀ W₁ b₁ c₁ = layersArr x W₀ b₀ c₀ W₁ b₁ c₁ := by
  funext i
  obtain ⟨l, r, j, rfl⟩ : ∃ (l : Fin 2) (r : Fin 1000000) (j : Fin 64), i = ix3 l r j := ⟨i 0, i 1, i 2, eq_ix3 i⟩
  unfold val_main_v26
  match l with
  | ⟨0, _⟩ =>
    rw [concatenate_pair_apply_left (t := S2x1000000x64) (s₁ := S1x1000000x64) (s₂ := S1x1000000x64) (0 : Fin 3) _ _ concatenates_S1x1000000x64_S1x1000000x64_S2x1000000x64_d0
      (ix3 (⟨0, by decide⟩ : Fin 2) r j) rfl (ix3 (0 : Fin 1) r j)
      (fun b => match b with | ⟨0, _⟩ => rfl | ⟨1, _⟩ => rfl | ⟨2, _⟩ => rfl)]
    rw [val_main_v24_apply]
    have e : idx_main_v24 (ix3 (0 : Fin 1) r j) = ix2 r j :=
      funext fun a => match a with | ⟨0, _⟩ => rfl | ⟨1, _⟩ => rfl
    rw [e, first_eq]
    rfl
  | ⟨1, _⟩ =>
    rw [concatenate_pair_apply_right (t := S2x1000000x64) (s₁ := S1x1000000x64) (s₂ := S1x1000000x64) (0 : Fin 3) _ _ concatenates_S1x1000000x64_S1x1000000x64_S2x1000000x64_d0
      (ix3 (⟨1, by decide⟩ : Fin 2) r j) rfl rfl (ix3 (0 : Fin 1) r j)
      (fun b hb => match b, hb with
        | ⟨0, _⟩, hb => absurd rfl hb
        | ⟨1, _⟩, _ => rfl
        | ⟨2, _⟩, _ => rfl)
      rfl]
    rw [val_main_v25_apply]
    have e : idx_main_v25 (ix3 (0 : Fin 1) r j) = ix2 r j :=
      funext fun a => match a with | ⟨0, _⟩ => rfl | ⟨1, _⟩ => rfl
    rw [e, second_eq]
    rfl

end Cert.Rnn.Ref

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.LibColumnLayout.lean ====
/-
  Two layout operations on a COLUMN, read at an index by coordinates:
  * a vector `[a]` reshaped to a column `[a, 1]` reads, at `(i, u)`, the vector at `i`;
  * a column `[a, 1]` broadcast along a new second extent to `[a, b]` reads, at `(p, c)`, the column at `(p, 0)`.
-/
import Idealize.ShloMosaic.Lib.Pipeline.Value
import Idealize.ShloMosaic.Lib.ValueIdx

noncomputable section

namespace Idealize.ShloMosaic.ColumnLayout

open Idealize.ShloMosaic Idealize.ShloMosaic.ValueIdx

variable {α : Type}

/-- An `[a]` array cast to `[a, 1]` reads, at `(i, u)`, the operand at `i`, whatever the unit coordinate `u`: both
    indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`: the row
    coordinate is kept (and is `0` anyway when there is one row), the unit column coordinate is `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout

end
-- ==== Proof.KernelPayload.lean ====
/-
  What the kernel body computes on one block of 10 000 input rows, read entry by entry.  The body is given the rows' inputs
  as a column, the first layer's weights as a row, the first layer's two biases ALREADY ADDED as a row, the second layer's
  weights transposed, its two biases already added as a row, the head's weights transposed and the head's bias as a row.
  It forms the first layer by a broadcast product and sum, and the second layer and the head by matrix-unit products into
  a zero accumulator, whose operands' narrowing to a shorter float format is the identity on the extended reals.  Against
  the specification the one difference is where the two biases are added: the body adds their sum to the product, the
  specification adds them one after the other; addition of extended reals is associative.
-/
import proofs.«143883_j13675175870864_1_alg».proof.Proof.Gen.KernelIdeal.Skeleton
import proofs.«143883_j13675175870864_1_alg».proof.Proof.LibRowDims
import proofs.«143883_j13675175870864_1_alg».proof.Proof.LibColumnLayout
import proofs.«143883_j13675175870864_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.Rnn.Ker

open Cert.KernelIdeal Cert.KernelIdeal.Gen Idealize.ShloMosaic Idealize.ShloMosaic.ValueIdx
open Idealize.ShloMosaic.ColumnLayout Idealize.ShloMosaic.RowDims Cert.Rnn

/-- The second layer's product is a plain `[10000, 64] × [64, 64]` contraction. -/
theorem dot64_eq : dot_S10000x64_S64x64_S10000x64_1_0_0_1_n_n = DotDims.plain 10000 64 64 := rfl
/-- The head's product is a plain `[10000, 64] × [64, 2]` contraction. -/
theorem dot2_eq : dot_S10000x64_S64x2_S10000x2_1_0_0_1_n_n = DotDims.plain 10000 64 2 := rfl

variable (v0 : Vec Ideal S10000x1 .f32) (v2 v4 : Vec Ideal S1x64 .f32) (v12 : Vec Ideal S64x64 .f32)
  (v15 : Vec Ideal S1x64 .f32) (v22 : Vec Ideal S64x2 .f32) (v25 : Vec Ideal S1x2 .f32)

/-! ## The payloads entry by entry, over the block's inputs -/

/-- The block's first layer at local row `p`, unit `q`: the row's input times the unit's weight plus the unit's summed
    bias, through tanh. -/
theorem pay2_apply (p : Fin 10000) (q : Fin 64) :
    k0_pay2 (F := Ideal) v0 v2 v4 (ix2 p q) = Ideal.tanh (v0 (ix2 p 0) * v2 (ix2 0 q) + v4 (ix2 0 q)) := by
  unfold k0_pay2
  simp only [shapeCast_self]
  show Ideal.tanh (broadcastTo S10000x64 v0 broadcasts_S10000x1_S10000x64 (ix2 p q)
      * broadcastTo S10000x64 v2 broadcasts_S1x64_S10000x64 (ix2 p q)
      + broadcastTo S10000x64 v4 broadcasts_S1x64_S10000x64 (ix2 p q)) = _
  rw [broadcastTo_a1_ab_apply, broadcastTo_1b_ab_apply, broadcastTo_1b_ab_apply]

/-- The block's second layer at local row `p`, unit `q`: the row's first layer against column `q` of the (transposed)
    weights, plus the unit's summed bias, through tanh. -/
theorem pay3_apply (p : Fin 10000) (q : Fin 64) :
    k0_pay3 (F := Ideal) v0 v2 v4 v12 v15 (ix2 p q)
      = Ideal.tanh ((∑ k : Fin 64, k0_pay2 (F := Ideal) v0 v2 v4 (ix2 p k) * v12 (ix2 k q)) + v15 (ix2 0 q)) := by
  unfold k0_pay3
  simp only [shapeCast_self]
  show Ideal.tanh (FloatOps.matmul dot_S10000x64_S64x64_S10000x64_1_0_0_1_n_n none
        (truncf .bf16 (k0_pay2 (F := Ideal) v0 v2 v4) bitsLt_bf16_f32) (truncf .bf16 v12 bitsLt_bf16_f32)
        (constant S10000x64 .f32 0x00000000#32) (ix2 p q)
      + broadcastTo S10000x64 v15 broadcasts_S1x64_S10000x64 (ix2 p q)) = _
  rw [dot64_eq, matmul_plain_zero_apply, broadcastTo_1b_ab_apply]
  rfl

/-- The block's head at local row `p`, output `o`: the row's second layer against column `o` of the (transposed) head
    weights, plus the head's bias. -/
theorem pay4_apply (p : Fin 10000) (o : Fin 2) :
    k0_pay4 (F := Ideal) v0 v2 v4 v12 v15 v22 v25 (ix2 p o)
      = (∑ k : Fin 64, k0_pay3 (F := Ideal) v0 v2 v4 v12 v15 (ix2 p k) * v22 (ix2 k o)) + v25 (ix2 0 o) := by
  unfold k0_pay4
  simp only [shapeCast_self]
  show FloatOps.matmul dot_S10000x64_S64x2_S10000x2_1_0_0_1_n_n none
        (truncf .bf16 (k0_pay3 (F := Ideal) v0 v2 v4 v12 v15) bitsLt_bf16_f32) (truncf .bf16 v22 bitsLt_bf16_f32)
        (constant S10000x2 .f32 0x00000000#32) (ix2 p o)
      + broadcastTo S10000x2 v25 broadcasts_S1x2_S10000x2 (ix2 p o) = _
  rw [dot2_eq, matmul_plain_zero_apply, broadcastTo_1b_ab_apply]
  rfl

/-- The first layer stored with a unit axis in front. -/
theorem pay5_apply (u : Fin 1) (p : Fin 10000) (q : Fin 64) :
    k0_pay5 (F := Ideal) v0 v2 v4 (ix3 u p q) = k0_pay2 (F := Ideal) v0 v2 v4 (ix2 p q) := by
  unfold k0_pay5
  exact shapeCast_ab_1ab_apply _ _ u p q

/-- A `[10000, 64]` value stored with a unit axis in front. -/
theorem pay1_apply (v21 : FVec Ideal S10000x64 .f32) (u : Fin 1) (p : Fin 10000) (q : Fin 64) :
    k0_pay1 (F := Ideal) v21 (ix3 u p q) = v21 (ix2 p q) := by
  unfold k0_pay1
  exact shapeCast_ab_1ab_apply _ _ u p q

/-! ## The block against the specification

Row `p` of the block is input row `r` of the whole batch; the block's other inputs are the parameters re-laid (weights
transposed, each layer's two biases added). -/

variable (x : (⟨1, ![1000000]⟩ : Shape).Idx → EReal)
  (W₀ : (⟨2, ![64, 1]⟩ : Shape).Idx → EReal) (b₀ c₀ : (⟨1, ![64]⟩ : Shape).Idx → EReal)
  (W₁ : (⟨2, ![64, 64]⟩ : Shape).Idx → EReal) (b₁ c₁ : (⟨1, ![64]⟩ : Shape).Idx → EReal)
  (Wf : (⟨2, ![2, 64]⟩ : Shape).Idx → EReal) (bf : (⟨1, ![2]⟩ : Shape).Idx → EReal)

/-- The block's first layer is the specification's: `a·w + (b + c) = a·w + b + c`. -/
theorem pay2_eq_first (p : Fin 10000) (r : Fin 1000000) (hx : v0 (ix2 p 0) = x (ix1 r))
    (hw : ∀ q : Fin 64, v2 (ix2 0 q) = W₀ (ix2 q 0)) (hb : ∀ q : Fin 64, v4 (ix2 0 q) = b₀ (ix1 q) + c₀ (ix1 q))
    (q : Fin 64) : k0_pay2 (F := Ideal) v0 v2 v4 (ix2 p q) = first x W₀ b₀ c₀ r q := by
  rw [pay2_apply, hx, hw, hb, first, add_assoc]

/-- The block's second layer is the specification's, by the same regrouping of the biases. -/
theorem pay3_eq_second (p : Fin 10000) (r : Fin 1000000) (hx : v0 (ix2 p 0) = x (ix1 r))
    (hw : ∀ q : Fin 64, v2 (ix2 0 q) = W₀ (ix2 q 0)) (hb : ∀ q : Fin 64, v4 (ix2 0 q) = b₀ (ix1 q) + c₀ (ix1 q))
    (hw₁ : ∀ k q : Fin 64, v12 (ix2 k q) = W₁ (ix2 q k)) (hb₁ : ∀ q : Fin 64, v15 (ix2 0 q) = b₁ (ix1 q) + c₁ (ix1 q))
    (q : Fin 64) : k0_pay3 (F := Ideal) v0 v2 v4 v12 v15 (ix2 p q) = second x W₀ b₀ c₀ W₁ b₁ c₁ r q := by
  rw [pay3_apply, hb₁, second, add_assoc]
  congr 2
  refine Finset.sum_congr rfl fun k _ => ?_
  rw [pay2_eq_first v0 v2 v4 x W₀ b₀ c₀ p r hx hw hb k, hw₁]

/-- The block's head is the specification's. -/
theorem pay4_eq_head (p : Fin 10000) (r : Fin 1000000) (hx : v0 (ix2 p 0) = x (ix1 r))
    (hw : ∀ q : Fin 64, v2 (ix2 0 q) = W₀ (ix2 q 0)) (hb : ∀ q : Fin 64, v4 (ix2 0 q) = b₀ (ix1 q) + c₀ (ix1 q))
    (hw₁ : ∀ k q : Fin 64, v12 (ix2 k q) = W₁ (ix2 q k)) (hb₁ : ∀ q : Fin 64, v15 (ix2 0 q) = b₁ (ix1 q) + c₁ (ix1 q))
    (hwf : ∀ (k : Fin 64) (o : Fin 2), v22 (ix2 k o) = Wf (ix2 o k)) (hbf : ∀ o : Fin 2, v25 (ix2 0 o) = bf (ix1 o))
    (o : Fin 2) : k0_pay4 (F := Ideal) v0 v2 v4 v12 v15 v22 v25 (ix2 p o) = head x W₀ b₀ c₀ W₁ b₁ c₁ Wf bf r o := by
  rw [pay4_apply, hbf, head]
  congr 1
  refine Finset.sum_congr rfl fun k _ => ?_
  rw [pay3_eq_second v0 v2 v4 v12 v15 x W₀ b₀ c₀ W₁ b₁ c₁ p r hx hw hb hw₁ hb₁ k, hwf]

end Cert.Rnn.Ker

end
-- ==== Proof.KernelBlocks.lean ====
/-
  From the blocks to the arrays.  The kernel walks the 1 000 000 input rows in 100 blocks of 10 000; grid point `t` is given
  rows `10000·t … 10000·t + 9999` of the input column and, whole, the seven small parameter arrays as the host operations
  in front of the call leave them: the first layer's weights transposed to a row, each layer's two biases added and laid as
  a row, the second layer's and the head's weights transposed, the head's bias as a row.  It writes back rows
  `10000·t …` of the head's array, and the same rows of both slabs of the stacked-layers array (the block is
  [2, 10000, 64], stored as two pieces: slab 0 the first layer, slab 1 the second).  Row `p` of block `t` is row
  `10000·t + p` of the batch, every row lies in exactly the block `row / 10000`, so each result array ends as the
  specification's array.
-/
import proofs.«143883_j13675175870864_1_alg».proof.Proof.Gen.KernelIdeal.Value
import proofs.«143883_j13675175870864_1_alg».proof.Proof.KernelPayload
import Idealize.ShloMosaic.Lib.StableHlo.Run

noncomputable section

open scoped BigOperators

namespace Cert.Rnn.Blk

open Cert.KernelIdeal Cert.KernelIdeal.Gen Idealize.ShloMosaic Idealize.ShloMosaic.TcCoe Idealize.SL.Sem
open Idealize.ShloMosaic.ValueIdx Idealize.ShloMosaic.StableHlo Idealize.ShloMosaic.ColumnLayout
open Idealize.ShloMosaic.Pipeline (Dat)
open Cert.Rnn Cert.Rnn.Ker

variable (m : (ℓ : Loc nD τ sig) → Buf (Elt Ideal) ℓ) (ρ : Dev nD → PrngReg)

/-! ## The argument arrays, by the names the specification gives them -/

abbrev argX (c : Dev nD) : (⟨1, ![1000000]⟩ : Shape).Idx → EReal := m ((c : Thread nD τ).loc main_arg0)
abbrev argW₀ (c : Dev nD) : (⟨2, ![64, 1]⟩ : Shape).Idx → EReal := m ((c : Thread nD τ).loc main_arg1)
abbrev argB₀ (c : Dev nD) : (⟨1, ![64]⟩ : Shape).Idx → EReal := m ((c : Thread nD τ).loc main_arg2)
abbrev argC₀ (c : Dev nD) : (⟨1, ![64]⟩ : Shape).Idx → EReal := m ((c : Thread nD τ).loc main_arg4)
abbrev argW₁ (c : Dev nD) : (⟨2, ![64, 64]⟩ : Shape).Idx → EReal := m ((c : Thread nD τ).loc main_arg5)
abbrev argB₁ (c : Dev nD) : (⟨1, ![64]⟩ : Shape).Idx → EReal := m ((c : Thread nD τ).loc main_arg6)
abbrev argC₁ (c : Dev nD) : (⟨1, ![64]⟩ : Shape).Idx → EReal := m ((c : Thread nD τ).loc main_arg8)
abbrev argWf (c : Dev nD) : (⟨2, ![2, 64]⟩ : Shape).Idx → EReal := m ((c : Thread nD τ).loc main_arg9)
abbrev argBf (c : Dev nD) : (⟨1, ![2]⟩ : Shape).Idx → EReal := m ((c : Thread nD τ).loc main_arg10)

/-! ## The arrays the call is given, entry by entry -/

/-- The input, reshaped to a column. -/
theorem V_v0 (c : Dev nD) (r : Fin 1000000) (u : Fin 1) :
    (V m c main_v0 : S1000000x1.Idx → EReal) (ix2 r u) = argX m c (ix1 r) := by
  have e : (V m c main_v0 : S1000000x1.Idx → EReal)
      = shapeCast S1000000x1 (argX m c) shapeCasts_S1000000_S1000000x1 := by
    dsimp only [Gen.V, Gen.hostOps0]; after_results; rfl
  rw [e]; exact shapeCast_a_a1_apply _ _ r u

/-- The first layer's weights, transposed to a row. -/
theorem V_v1 (c : Dev nD) (u : Fin 1) (q : Fin 64) :
    (V m c main_v1 : S1x64.Idx → EReal) (ix2 u q) = argW₀ m c (ix2 q u) := by
  have e : (V m c main_v1 : S1x64.Idx → EReal)
      = transpose S1x64 [1, 0] (argW₀ m c) transposes_S64x1_S1x64_1_0 := by
    dsimp only [Gen.V, Gen.hostOps0]; after_results
  rw [e]; exact transpose_ix2_apply _ _ u q

/-- The first layer's two biases added, as a row. -/
theorem V_v3 (c : Dev nD) (u : Fin 1) (q : Fin 64) :
    (V m c main_v3 : S1x64.Idx → EReal) (ix2 u q) = argB₀ m c (ix1 q) + argC₀ m c (ix1 q) := by
  have e : (V m c main_v3 : S1x64.Idx → EReal)
      = shapeCast S1x64 (addf (F := Ideal) (s := S64) (φ := .f32) (argB₀ m c) (argC₀ m c)) shapeCasts_S64_S1x64 := by
    dsimp only [Gen.V, Gen.hostOps0]; after_results; rfl
  rw [e]; exact shapeCast_a_1a_apply _ _ u q

/-- The second layer's weights, transposed. -/
theorem V_v4 (c : Dev nD) (k q : Fin 64) :
    (V m c main_v4 : S64x64.Idx → EReal) (ix2 k q) = argW₁ m c (ix2 q k) := by
  have e : (V m c main_v4 : S64x64.Idx → EReal)
      = transpose S64x64 [1, 0] (argW₁ m c) transposes_S64x64_S64x64_1_0 := by
    dsimp only [Gen.V, Gen.hostOps0]; after_results
  rw [e]; exact transpose_ix2_apply _ _ k q

/-- The second layer's two biases added, as a row. -/
theorem V_v6 (c : Dev nD) (u : Fin 1) (q : Fin 64) :
    (V m c main_v6 : S1x64.Idx → EReal) (ix2 u q) = argB₁ m c (ix1 q) + argC₁ m c (ix1 q) := by
  have e : (V m c main_v6 : S1x64.Idx → EReal)
      = shapeCast S1x64 (addf (F := Ideal) (s := S64) (φ := .f32) (argB₁ m c) (argC₁ m c)) shapeCasts_S64_S1x64 := by
    dsimp only [Gen.V, Gen.hostOps0]; after_results; rfl
  rw [e]; exact shapeCast_a_1a_apply _ _ u q

/-- The head's weights, transposed. -/
theorem V_v7 (c : Dev nD) (k : Fin 64) (o : Fin 2) :
    (V m c main_v7 : S64x2.Idx → EReal) (ix2 k o) = argWf m c (ix2 o k) := by
  have e : (V m c main_v7 : S64x2.Idx → EReal)
      = transpose S64x2 [1, 0] (argWf m c) transposes_S2x64_S64x2_1_0 := by
    dsimp only [Gen.V, Gen.hostOps0]; after_results
  rw [e]; exact transpose_ix2_apply _ _ k o

/-- The head's bias, as a row. -/
theorem V_v8 (c : Dev nD) (u : Fin 1) (o : Fin 2) :
    (V m c main_v8 : S1x2.Idx → EReal) (ix2 u o) = argBf m c (ix1 o) := by
  have e : (V m c main_v8 : S1x2.Idx → EReal)
      = shapeCast S1x2 (argBf m c) shapeCasts_S2_S1x2 := by
    dsimp only [Gen.V, Gen.hostOps0]; after_results; rfl
  rw [e]; exact shapeCast_a_1a_apply _ _ u o

/-! ## Which block each grid point is given -/

theorem zero2 : (![0, 0] : Fin 2 → Nat) = fun _ => 0 := funext fun a => by fin_cases a <;> rfl

/-- The block indices over the grid: the input column and both result windows move with the grid point along the row
    axis; the seven parameter windows stay at block 0. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 3) = 0 ∧ win0_8.index t (1 : Fin 3) = t.val ∧ win0_8.index t (2 : Fin 3) = 0 :=
  (by decide +kernel : ∀ t : Fin grid0.N, _)

theorem point_lt (t : Fin cfg0.N) : t.val < 100 := by
  have h := t.isLt
  have e : cfg0.N = 100 := N_0
  omega

/-- Row `p` of block `t`, as a row of the batch. -/
def rowOf (t : Fin cfg0.N) (p : Fin 10000) : Fin 1000000 :=
  ⟨t.val * 10000 + p.val, by have := point_lt t; have := p.isLt; omega⟩

/-- Block `t` of the input column holds the batch's rows from `10000·t`. -/
theorem blk0_apply (c : Dev nD) (t : Fin cfg0.N) (p : Fin 10000) (u : Fin 1) :
    (iblk m c 0 t : Vec Ideal S10000x1 .f32) (ix2 p u) = argX m c (ix1 (rowOf t p)) := by
  show (V m c main_v0 : S1000000x1.Idx → EReal) (((cfg0.win 0).blk t).view.emb (ix2 p u)) = _
  have he : ((cfg0.win 0).blk t).view.emb (ix2 p u) = ix2 (rowOf t p) u := by
    obtain ⟨e0, e1, -⟩ := block_index t
    funext a; apply Fin.ext
    match a with
    | ⟨0, _⟩ => show win0_0.index t (0 : Fin 2) * 10000 + 1 * p.val = t.val * 10000 + p.val; omega
    | ⟨1, _⟩ => show win0_0.index t (1 : Fin 2) * 1 + 1 * u.val = u.val; omega
  rw [he]; exact V_v0 m c _ u

/-- The first layer's weight row, whole at every point. -/
theorem blk1_apply (c : Dev nD) (t : Fin cfg0.N) (q : Fin 64) :
    (iblk m c 1 t : Vec Ideal S1x64 .f32) (ix2 0 q) = argW₀ m c (ix2 q 0) := by
  show (V m c main_v1 : S1x64.Idx → EReal) (((cfg0.win 1).blk t).view.emb (ix2 (0 : Fin 1) q)) = _
  have he : ((cfg0.win 1).blk t).view.emb (ix2 (0 : Fin 1) q) = ix2 (0 : Fin 1) q := by
    obtain ⟨-, -, e0, e1, -⟩ := block_index t
    funext a; apply Fin.ext
    match a with
    | ⟨0, _⟩ => show win0_1.index t (0 : Fin 2) * 1 + 1 * 0 = 0; omega
    | ⟨1, _⟩ => show win0_1.index t (1 : Fin 2) * 64 + 1 * q.val = q.val; omega
  rw [he]; exact V_v1 m c 0 q

/-- The first layer's summed-bias row, whole at every point. -/
theorem blk2_apply (c : Dev nD) (t : Fin cfg0.N) (q : Fin 64) :
    (iblk m c 2 t : Vec Ideal S1x64 .f32) (ix2 0 q) = argB₀ m c (ix1 q) + argC₀ m c (ix1 q) := by
  show (V m c main_v3 : S1x64.Idx → EReal) (((cfg0.win 2).blk t).view.emb (ix2 (0 : Fin 1) q)) = _
  have he : ((cfg0.win 2).blk t).view.emb (ix2 (0 : Fin 1) q) = ix2 (0 : Fin 1) q := by
    obtain ⟨-, -, -, -, e0, e1, -⟩ := block_index t
    funext a; apply Fin.ext
    match a with
    | ⟨0, _⟩ => show win0_2.index t (0 : Fin 2) * 1 + 1 * 0 = 0; omega
    | ⟨1, _⟩ => show win0_2.index t (1 : Fin 2) * 64 + 1 * q.val = q.val; omega
  rw [he]; exact V_v3 m c 0 q

/-- The second layer's transposed weights, whole at every point. -/
theorem blk3_apply (c : Dev nD) (t : Fin cfg0.N) (k q : Fin 64) :
    (iblk m c 3 t : Vec Ideal S64x64 .f32) (ix2 k q) = argW₁ m c (ix2 q k) := by
  show (V m c main_v4 : S64x64.Idx → EReal) (((cfg0.win 3).blk t).view.emb (ix2 k q)) = _
  have he : ((cfg0.win 3).blk t).view.emb (ix2 k q) = ix2 k q := by
    obtain ⟨-, -, -, -, -, -, e0, e1, -⟩ := block_index t
    funext a; apply Fin.ext
    match a with
    | ⟨0, _⟩ => show win0_3.index t (0 : Fin 2) * 64 + 1 * k.val = k.val; omega
    | ⟨1, _⟩ => show win0_3.index t (1 : Fin 2) * 64 + 1 * q.val = q.val; omega
  rw [he]; exact V_v4 m c k q

/-- The second layer's summed-bias row, whole at every point. -/
theorem blk4_apply (c : Dev nD) (t : Fin cfg0.N) (q : Fin 64) :
    (iblk m c 4 t : Vec Ideal S1x64 .f32) (ix2 0 q) = argB₁ m c (ix1 q) + argC₁ m c (ix1 q) := by
  show (V m c main_v6 : S1x64.Idx → EReal) (((cfg0.win 4).blk t).view.emb (ix2 (0 : Fin 1) q)) = _
  have he : ((cfg0.win 4).blk t).view.emb (ix2 (0 : Fin 1) q) = ix2 (0 : Fin 1) q := by
    obtain ⟨-, -, -, -, -, -, -, -, e0, e1, -⟩ := block_index t
    funext a; apply Fin.ext
    match a with
    | ⟨0, _⟩ => show win0_4.index t (0 : Fin 2) * 1 + 1 * 0 = 0; omega
    | ⟨1, _⟩ => show win0_4.index t (1 : Fin 2) * 64 + 1 * q.val = q.val; omega
  rw [he]; exact V_v6 m c 0 q

/-- The head's transposed weights, whole at every point. -/
theorem blk5_apply (c : Dev nD) (t : Fin cfg0.N) (k : Fin 64) (o : Fin 2) :
    (iblk m c 5 t : Vec Ideal S64x2 .f32) (ix2 k o) = argWf m c (ix2 o k) := by
  show (V m c main_v7 : S64x2.Idx → EReal) (((cfg0.win 5).blk t).view.emb (ix2 k o)) = _
  have he : ((cfg0.win 5).blk t).view.emb (ix2 k o) = ix2 k o := by
    obtain ⟨-, -, -, -, -, -, -, -, -, -, e0, e1, -⟩ := block_index t
    funext a; apply Fin.ext
    match a with
    | ⟨0, _⟩ => show win0_5.index t (0 : Fin 2) * 64 + 1 * k.val = k.val; omega
    | ⟨1, _⟩ => show win0_5.index t (1 : Fin 2) * 2 + 1 * o.val = o.val; omega
  rw [he]; exact V_v7 m c k o

/-- The head's bias row, whole at every point. -/
theorem blk6_apply (c : Dev nD) (t : Fin cfg0.N) (o : Fin 2) :
    (iblk m c 6 t : Vec Ideal S1x2 .f32) (ix2 0 o) = argBf m c (ix1 o) := by
  show (V m c main_v8 : S1x2.Idx → EReal) (((cfg0.win 6).blk t).view.emb (ix2 (0 : Fin 1) o)) = _
  have he : ((cfg0.win 6).blk t).view.emb (ix2 (0 : Fin 1) o) = ix2 (0 : Fin 1) o := by
    obtain ⟨-, -, -, -, -, -, -, -, -, -, -, -, e0, e1, -⟩ := block_index t
    funext a; apply Fin.ext
    match a with
    | ⟨0, _⟩ => show win0_6.index t (0 : Fin 2) * 1 + 1 * 0 = 0; omega
    | ⟨1, _⟩ => show win0_6.index t (1 : Fin 2) * 2 + 1 * o.val = o.val; omega
  rw [he]; exact V_v8 m c 0 o

/-! ## The head's array -/

/-- What point `t` writes back to the head's array is block `t` of the specification's array. -/
theorem flushed7_eq (c : Dev nD) (t : Fin cfg0.N) :
    (dats m 0 c).flushed 7 t = ((cfg0.win 7).blk t).view.read (Elt Ideal) (headArr (argX m c) (argW₀ m c) (argB₀ m c) (argC₀ m c) (argW₁ m c) (argB₁ m c) (argC₁ m c) (argWf m c) (argBf m c)) := by
  rw [Value.flushed7]
  unfold out0_7
  rw [View.canon_unit_zero zero2]
  simp only [View.ld_unit_zero (S := S10000x1) zero2, View.ld_unit_zero (S := S1x64) zero2,
    View.ld_unit_zero (S := S64x64) zero2, View.ld_unit_zero (S := S64x2) zero2, View.ld_unit_zero (S := S1x2) zero2]
  funext j
  obtain ⟨p, o, rfl⟩ : ∃ (p : Fin 10000) (o : Fin 2), j = ix2 p o := ⟨j 0, j 1, eq_ix2 j⟩
  show k0_pay4 (F := Ideal) (iblk m c 0 t) (iblk m c 1 t) (iblk m c 2 t) (iblk m c 3 t) (iblk m c 4 t) (iblk m c 5 t) (iblk m c 6 t) (ix2 p o)
      = headArr (argX m c) (argW₀ m c) (argB₀ m c) (argC₀ m c) (argW₁ m c) (argB₁ m c) (argC₁ m c) (argWf m c) (argBf m c) (((cfg0.win 7).blk t).view.emb (ix2 p o))
  have he : ((cfg0.win 7).blk t).view.emb (ix2 p o) = ix2 (rowOf t p) o := by
    obtain ⟨-, -, -, -, -, -, -, -, -, -, -, -, -, -, e0, e1, -⟩ := block_index t
    funext a; apply Fin.ext
    match a with
    | ⟨0, _⟩ => show win0_7.index t (0 : Fin 2) * 10000 + 1 * p.val = t.val * 10000 + p.val; omega
    | ⟨1, _⟩ => show win0_7.index t (1 : Fin 2) * 2 + 1 * o.val = o.val; omega
  rw [he]
  exact pay4_eq_head (iblk m c 0 t) (iblk m c 1 t) (iblk m c 2 t) (iblk m c 3 t) (iblk m c 4 t) (iblk m c 5 t) (iblk m c 6 t) (argX m c) (argW₀ m c) (argB₀ m c) (argC₀ m c) (argW₁ m c) (argB₁ m c) (argC₁ m c) (argWf m c) (argBf m c) p (rowOf t p)
    (blk0_apply m c t p 0) (blk1_apply m c t) (blk2_apply m c t) (blk3_apply m c t) (blk4_apply m c t)
    (blk5_apply m c t) (blk6_apply m c t) o

/-- An index of the head's array is in point `t`'s block iff its row is among the block's 10 000. -/
theorem mem_blk7 (t : Fin cfg0.N) (i : S1000000x2.Idx) :
    i ∈ ((cfg0.win 7).blk t).view.set ↔ ∀ a : Fin 2, win0_7.index t a * S10000x2.size a ≤ (i a).val
      ∧ (i a).val < win0_7.index t a * S10000x2.size a + S10000x2.size a := by
  show i ∈ ((View.whole main_v9_0).slice (win0_7.rect t)).set ↔ _
  rw [View.set_slice_whole, Rect.mem_set_unit]
  exact Iff.rfl

/-- Every row of the head's array is written back by the point `row / 10000`. -/
theorem cover7 (i : S1000000x2.Idx) :
    ∃ t : Fin cfg0.N, (cfg0.win 7).flush t = true ∧ i ∈ ((cfg0.win 7).blk t).view.set := by
  have h0 : (i 0).val < 1000000 := (i 0).isLt
  have h1 : (i 1).val < 2 := (i 1).isLt
  have eN : cfg0.N = 100 := N_0
  let t : Fin cfg0.N := ⟨(i 0).val / 10000, by omega⟩
  obtain ⟨-, -, -, -, -, -, -, -, -, -, -, -, -, -, e0, e1, -⟩ := block_index t
  have ht : t.val = (i 0).val / 10000 := rfl
  refine ⟨t, flush0_7 t, ?_⟩
  rw [mem_blk7]
  intro a
  match a with
  | ⟨0, _⟩ =>
    show win0_7.index t (0 : Fin 2) * 10000 ≤ (i 0).val ∧ (i 0).val < win0_7.index t (0 : Fin 2) * 10000 + 10000
    omega
  | ⟨1, _⟩ =>
    show win0_7.index t (1 : Fin 2) * 2 ≤ (i 1).val ∧ (i 1).val < win0_7.index t (1 : Fin 2) * 2 + 2
    omega

/-- After the run the head's array is the specification's. -/
theorem final7 (c : Dev nD) : (dats m 0 c).arrAt 7 cfg0.N = headArr (argX m c) (argW₀ m c) (argB₀ m c) (argC₀ m c) (argW₁ m c) (argB₁ m c) (argC₁ m c) (argWf m c) (argBf m c) :=
  (dats m 0 c).arrAt_eq_of_cover 7 _ (fun t _ => flushed7_eq m c t) cover7

/-! ## The stacked layers' array -/

/-- What point `t` writes back to the stacked array is block `t` of the specification's array: the block's two stored
    pieces are its two slabs, the later one the second layer, the earlier one the first. -/
theorem flushed8_eq (c : Dev nD) (t : Fin cfg0.N) :
    (dats m 0 c).flushed 8 t = ((cfg0.win 8).blk t).view.read (Elt Ideal) (layersArr (argX m c) (argW₀ m c) (argB₀ m c) (argC₀ m c) (argW₁ m c) (argB₁ m c) (argC₁ m c)) := by
  rw [Value.flushed8]
  unfold out0_8
  simp only [View.ld_unit_zero (S := S10000x1) zero2, View.ld_unit_zero (S := S1x64) zero2,
    View.ld_unit_zero (S := S64x64) zero2]
  funext j
  show View.canon (Val := Elt Ideal) ([⟨r0_7, k0_pay1 (F := Ideal) (k0_pay3 (F := Ideal) (iblk m c 0 t) (iblk m c 1 t) (iblk m c 2 t) (iblk m c 3 t) (iblk m c 4 t))⟩,
      ⟨r0_6, k0_pay5 (F := Ideal) (iblk m c 0 t) (iblk m c 1 t) (iblk m c 2 t)⟩] :
        List (View.Piece (Elt Ideal) S2x10000x64 .f32)) j
    = layersArr (argX m c) (argW₀ m c) (argB₀ m c) (argC₀ m c) (argW₁ m c) (argB₁ m c) (argC₁ m c) (((cfg0.win 8).blk t).view.emb j)
  refine View.canon_apply_of_pieces (Val := Elt Ideal) (S := S2x10000x64) (e := .f32) (fun y => layersArr (argX m c) (argW₀ m c) (argB₀ m c) (argC₀ m c) (argW₁ m c) (argB₁ m c) (argC₁ m c) (((cfg0.win 8).blk t).view.emb y)) _ ?_ j
    (cover0_8 _ _ j)
  intro pc hpc x
  simp only [List.mem_cons, List.mem_singleton, List.not_mem_nil, or_false] at hpc
  rcases hpc with rfl | rfl
  · -- slab 1: the second layer
    obtain ⟨u, p, q, rfl⟩ : ∃ (u : Fin 1) (p : Fin 10000) (q : Fin 64), x = ix3 u p q :=
      ⟨x 0, x 1, x 2, eq_ix3 (n0 := 1) (n1 := 10000) (n2 := 64) x⟩
    show k0_pay1 (F := Ideal) (k0_pay3 (F := Ideal) (iblk m c 0 t) (iblk m c 1 t) (iblk m c 2 t) (iblk m c 3 t) (iblk m c 4 t)) (ix3 u p q)
      = layersArr (argX m c) (argW₀ m c) (argB₀ m c) (argC₀ m c) (argW₁ m c) (argB₁ m c) (argC₁ m c) (((cfg0.win 8).blk t).view.emb (r0_7.emb (ix3 u p q)))
    have he : ((cfg0.win 8).blk t).view.emb (r0_7.emb (ix3 u p q)) = ix3 (1 : Fin 2) (rowOf t p) q := by
      obtain ⟨-, -, -, -, -, -, -, -, -, -, -, -, -, -, -, -, e0, e1, e2⟩ := block_index t
      have hu : u.val = 0 := by omega
      funext a; apply Fin.ext
      match a with
      | ⟨0, _⟩ => show win0_8.index t (0 : Fin 3) * 2 + 1 * (1 + 1 * u.val) = 1; omega
      | ⟨1, _⟩ => show win0_8.index t (1 : Fin 3) * 10000 + 1 * (0 + 1 * p.val) = t.val * 10000 + p.val; omega
      | ⟨2, _⟩ => show win0_8.index t (2 : Fin 3) * 64 + 1 * (0 + 1 * q.val) = q.val; omega
    rw [he, pay1_apply, pay3_eq_second (iblk m c 0 t) (iblk m c 1 t) (iblk m c 2 t) (iblk m c 3 t) (iblk m c 4 t) (argX m c) (argW₀ m c) (argB₀ m c) (argC₀ m c) (argW₁ m c) (argB₁ m c) (argC₁ m c) p (rowOf t p)
      (blk0_apply m c t p 0) (blk1_apply m c t) (blk2_apply m c t) (blk3_apply m c t) (blk4_apply m c t) q]
    rfl
  · -- slab 0: the first layer
    obtain ⟨u, p, q, rfl⟩ : ∃ (u : Fin 1) (p : Fin 10000) (q : Fin 64), x = ix3 u p q :=
      ⟨x 0, x 1, x 2, eq_ix3 (n0 := 1) (n1 := 10000) (n2 := 64) x⟩
    show k0_pay5 (F := Ideal) (iblk m c 0 t) (iblk m c 1 t) (iblk m c 2 t) (ix3 u p q)
      = layersArr (argX m c) (argW₀ m c) (argB₀ m c) (argC₀ m c) (argW₁ m c) (argB₁ m c) (argC₁ m c) (((cfg0.win 8).blk t).view.emb (r0_6.emb (ix3 u p q)))
    have he : ((cfg0.win 8).blk t).view.emb (r0_6.emb (ix3 u p q)) = ix3 (0 : Fin 2) (rowOf t p) q := by
      obtain ⟨-, -, -, -, -, -, -, -, -, -, -, -, -, -, -, -, e0, e1, e2⟩ := block_index t
      have hu : u.val = 0 := by omega
      funext a; apply Fin.ext
      match a with
      | ⟨0, _⟩ => show win0_8.index t (0 : Fin 3) * 2 + 1 * (0 + 1 * u.val) = 0; omega
      | ⟨1, _⟩ => show win0_8.index t (1 : Fin 3) * 10000 + 1 * (0 + 1 * p.val) = t.val * 10000 + p.val; omega
      | ⟨2, _⟩ => show win0_8.index t (2 : Fin 3) * 64 + 1 * (0 + 1 * q.val) = q.val; omega
    rw [he, pay5_apply, pay2_eq_first (iblk m c 0 t) (iblk m c 1 t) (iblk m c 2 t)
      (argX m c) (argW₀ m c) (argB₀ m c) (argC₀ m c) p (rowOf t p)
      (blk0_apply m c t p 0) (blk1_apply m c t) (blk2_apply m c t) q]
    rfl

/-- An index of the stacked array is in point `t`'s block iff its row is among the block's 10 000 (both slabs and all
    64 units belong to every block). -/
theorem mem_blk8 (t : Fin cfg0.N) (i : S2x1000000x64.Idx) :
    i ∈ ((cfg0.win 8).blk t).view.set ↔ ∀ a : Fin 3, win0_8.index t a * S2x10000x64.size a ≤ (i a).val
      ∧ (i a).val < win0_8.index t a * S2x10000x64.size a + S2x10000x64.size a := by
  show i ∈ ((View.whole main_v9_1).slice (win0_8.rect t)).set ↔ _
  rw [View.set_slice_whole, Rect.mem_set_unit]
  exact Iff.rfl

/-- Every entry of the stacked array is written back by the point `row / 10000`. -/
theorem cover8 (i : S2x1000000x64.Idx) :
    ∃ t : Fin cfg0.N, (cfg0.win 8).flush t = true ∧ i ∈ ((cfg0.win 8).blk t).view.set := by
  have h0 : (i 0).val < 2 := (i 0).isLt
  have h1 : (i 1).val < 1000000 := (i 1).isLt
  have h2 : (i 2).val < 64 := (i 2).isLt
  have eN : cfg0.N = 100 := N_0
  let t : Fin cfg0.N := ⟨(i 1).val / 10000, by omega⟩
  obtain ⟨-, -, -, -, -, -, -, -, -, -, -, -, -, -, -, -, e0, e1, e2⟩ := block_index t
  have ht : t.val = (i 1).val / 10000 := rfl
  refine ⟨t, flush0_8 t, ?_⟩
  rw [mem_blk8]
  intro a
  match a with
  | ⟨0, _⟩ =>
    show win0_8.index t (0 : Fin 3) * 2 ≤ (i 0).val ∧ (i 0).val < win0_8.index t (0 : Fin 3) * 2 + 2
    omega
  | ⟨1, _⟩ =>
    show win0_8.index t (1 : Fin 3) * 10000 ≤ (i 1).val ∧ (i 1).val < win0_8.index t (1 : Fin 3) * 10000 + 10000
    omega
  | ⟨2, _⟩ =>
    show win0_8.index t (2 : Fin 3) * 64 ≤ (i 2).val ∧ (i 2).val < win0_8.index t (2 : Fin 3) * 64 + 64
    omega

/-- After the run the stacked array is the specification's. -/
theorem final8 (c : Dev nD) : (dats m 0 c).arrAt 8 cfg0.N = layersArr (argX m c) (argW₀ m c) (argB₀ m c) (argC₀ m c) (argW₁ m c) (argB₁ m c) (argC₁ m c) :=
  (dats m 0 c).arrAt_eq_of_cover 8 _ (fun t _ => flushed8_eq m c t) cover8

/-! ## The run -/

/-- Every execution of the kernel, read over the extended reals, ends with the two result arrays at the specification's
    arrays of the arguments, and the arguments as they were. -/
theorem run : θ_run defs (onTc (τ := τ) (main (F := Ideal))) ⟨m, fun _ => 0, ρ⟩ fun r => ∀ c : Dev nD,
      r.2.mem ((c : Thread nD τ).loc main_v9_0) = headArr (argX m c) (argW₀ m c) (argB₀ m c) (argC₀ m c) (argW₁ m c) (argB₁ m c) (argC₁ m c) (argWf m c) (argBf m c)
      ∧ r.2.mem ((c : Thread nD τ).loc main_v9_1) = layersArr (argX m c) (argW₀ m c) (argB₀ m c) (argC₀ m c) (argW₁ m c) (argB₁ m c) (argC₁ m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final7 m c), (h c).2.1.trans (final8 m c), (h c).2.2⟩)
    (Value.run_blocks m ρ)

end Cert.Rnn.Blk

end
-- ==== Proof.lean ====
/-
  A kernel for a two-layer tanh recurrent cell run for one time step from a zero hidden state on 1 000 000 scalar inputs,
  followed by a linear head, against the same computation written with whole-array operations.

  Over the extended reals both programs compute, for input row `r`,
    first  r j = tanh (x r · W₀ j 0 + b₀ j + c₀ j),
    second r j = tanh (∑ k, first r k · W₁ j k + b₁ j + c₁ j),
    head   r o = ∑ k, second r k · W_f o k + b_f o,
  and return `head` as an array [row, output] together with the two layers stacked as [layer, row, unit].

  The kernel works on 100 blocks of 10 000 rows.  Before the call the weights are transposed and each layer's two biases are
  added; in the body the first layer is a broadcast product (its contraction has one term), the second layer and the head
  are matrix products into a zero accumulator whose operands are first narrowed to a shorter float format, which changes
  nothing on the extended reals.  The reference adds each layer's two biases one after the other to the product; the kernel
  adds their sum.  Addition of extended reals is associative, so the two agree with no condition on the inputs: the
  finiteness precondition is not used.  The reference stacks the layers by joining two arrays along a new leading axis; the
  kernel stores the two slabs of each block as two pieces.
-/
import proofs.«143883_j13675175870864_1_alg».proof.Defs
import proofs.«143883_j13675175870864_1_alg».proof.Proof.Gen.Kernel
import proofs.«143883_j13675175870864_1_alg».proof.Proof.Gen.Kernel.Skeleton
import proofs.«143883_j13675175870864_1_alg».proof.Proof.Gen.Kernel.Launch
import proofs.«143883_j13675175870864_1_alg».proof.Proof.Gen.Kernel.Points
import proofs.«143883_j13675175870864_1_alg».proof.Proof.Gen.Kernel.Frame
import proofs.«143883_j13675175870864_1_alg».proof.Proof.Gen.KernelIdeal
import proofs.«143883_j13675175870864_1_alg».proof.Proof.Gen.KernelIdeal.Skeleton
import proofs.«143883_j13675175870864_1_alg».proof.Proof.Gen.KernelIdeal.Launch
import proofs.«143883_j13675175870864_1_alg».proof.Proof.Gen.KernelIdeal.Points
import proofs.«143883_j13675175870864_1_alg».proof.Proof.Gen.KernelIdeal.Frame
import proofs.«143883_j13675175870864_1_alg».proof.Proof.Gen.ReferenceIdeal
import proofs.«143883_j13675175870864_1_alg».proof.Proof.Gen.Pre_finite_inputs
import proofs.«143883_j13675175870864_1_alg».proof.Proof.Gen.KernelIdeal.Value
import proofs.«143883_j13675175870864_1_alg».proof.Proof.Gen.ReferenceIdeal.Run
import proofs.«143883_j13675175870864_1_alg».proof.Proof.Gen.ReferenceIdeal.Read
import proofs.«143883_j13675175870864_1_alg».proof.Proof.RefValue
import proofs.«143883_j13675175870864_1_alg».proof.Proof.KernelBlocks
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments as they were: its run, with the two results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- From memories that agree on the arguments, the kernel's two result arrays and the reference's are the specification's
    head array and stacked-layers array of those arguments. -/
theorem algebraic : Cert.algebraic_KernelIdeal_ReferenceIdeal := by
  intro m ρ m' ρ' _ hagree
  refine ⟨_, _, Cert.Rnn.Blk.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨h0, h1, h2, -, h4, h5, h6, -, h8, h9, h10⟩ := hagree c
    refine (Cert.ReferenceIdeal.Read.val_main_v23_eq (F := Ideal) _ _ _ _ _ _ _ _ _).trans ?_
    rw [Cert.Rnn.Ref.head_eq, h0, h1, h2, h4, h5, h6, h8, h9, h10]
  · obtain ⟨h0, h1, h2, -, h4, h5, h6, -, h8, -, -⟩ := hagree c
    refine (Cert.ReferenceIdeal.Read.val_main_v26_eq (F := Ideal) _ _ _ _ _ _ _).trans ?_
    rw [Cert.Rnn.Ref.layers_eq, h0, h1, h2, h4, h5, h6, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
